-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S4096x8192 : Shape := ⟨2, ![4096, 8192]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  main_v18

def fn {F : FTy → Type} [FloatOps F] (main_arg0 : FVec F S1024x2048 .f32) (main_arg1 : FVec F S1024x2048 .f32) (main_arg2 : FVec F S1024x2048 .f32) (main_arg3 : FVec F S4096x8192 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S4096x8192 .f32 := Host.absf main_arg3
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_v13 main_v16
-- ==== Kernel.lean ====
abbrev S1024x2048 : Shape := ⟨2, ![1024, 2048]⟩
abbrev S4096x8192 : Shape := ⟨2, ![4096, 8192]⟩
abbrev S1024x4096 : Shape := ⟨2, ![1024, 4096]⟩
abbrev S256x256 : Shape := ⟨2, ![256, 256]⟩
abbrev S256x8192 : Shape := ⟨2, ![256, 8192]⟩
abbrev S256x2048 : Shape := ⟨2, ![256, 2048]⟩

abbrev nBuf : Space → Nat
  | .hbm => 7
  | .vmem => 11
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S4096x8192, .f32⟩
  | .hbm, ⟨4, _⟩ => ⟨S1024x4096, .f32⟩
  | .hbm, ⟨5, _⟩ => ⟨S1024x2048, .f32⟩
  | .hbm, ⟨6, _⟩ => ⟨S1024x2048, .f32⟩
  | .local _ .vmem, ⟨0, _⟩ => ⟨S256x256, .f32⟩
  | .local _ .vmem, ⟨1, _⟩ => ⟨S256x256, .f32⟩
  | .local _ .vmem, ⟨2, _⟩ => ⟨S256x8192, .f32⟩
  | .local _ .vmem, ⟨3, _⟩ => ⟨S256x8192, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x8192, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  concatenates_S1024x2048_S1024x2048_S1024x4096_d1 : Shape.Concatenates [S1024x2048, S1024x2048] S1024x4096 1
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  slices_S256x8192_o0_0_S256x2048 : S256x8192.Slices ![0, 0] S256x2048
  slices_S256x8192_o0_2048_S256x2048 : S256x8192.Slices ![0, 2048] S256x2048
  slices_S256x8192_o0_4096_S256x2048 : S256x8192.Slices ![0, 4096] S256x2048
  slices_S256x8192_o0_6144_S256x2048 : S256x8192.Slices ![0, 6144] S256x2048
  inb_S256x2048_S256x2048_0_0 : ∀ a, (![0, 0] : Fin 2 → Nat) a + S256x2048.size a ≤ S256x2048.size a
  h_S256x2048 : 0 < S256x2048.numel
  dot_S256x256_S256x8192_S256x8192_1_0_0_1_n_n_wf : DotDims.WF S256x256 S256x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S1024x4096.size a
  hwx0_0 : ∀ i : grid0.Coords, EltTy.bits .f32 = 32 ∨ (Rect.block (s := S1024x4096) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .f32 = 32 ∨ (Rect.block (s := S4096x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S1024x2048.size a
  hwx0_2 : ∀ i : grid0.Coords, EltTy.bits .f32 = 32 ∨ (Rect.block (s := S1024x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S1024x2048.size a
  hwx0_3 : ∀ i : grid0.Coords, EltTy.bits .f32 = 32 ∨ (Rect.block (s := S1024x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S1024x2048.size a
  hwx0_4 : ∀ i : grid0.Coords, EltTy.bits .f32 = 32 ∨ (Rect.block (s := S1024x2048) S256x2048.size (cc0_transform_4 i) (hinb0_4 i)).WholeWords (EltTy.packing .f32)

variable [Facts₀]

def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x2048 : Shape := ⟨2, ![1024, 2048]⟩
abbrev S4096x8192 : Shape := ⟨2, ![4096, 8192]⟩
abbrev S1024x4096 : Shape := ⟨2, ![1024, 4096]⟩
abbrev S1024x8192 : Shape := ⟨2, ![1024, 8192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S4096x8192, .f32⟩
  | .hbm, ⟨4, _⟩ => ⟨S1024x4096, .f32⟩
  | .hbm, ⟨5, _⟩ => ⟨S1024x8192, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S_, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S1024x2048, .f32⟩
  | .hbm, ⟨20, _⟩ => ⟨S_, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024x2048, .f32⟩
  | .hbm, ⟨30, _⟩ => ⟨S1024x2048, .f32⟩
  | .hbm, ⟨31, _⟩ => ⟨S_, .f32⟩
  | .hbm, ⟨32, _⟩ => ⟨S1024x2048, .f32⟩
  | .hbm, ⟨33, _⟩ => ⟨S1024x2048, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S1024x2048, .f32⟩
  | .hbm, ⟨38, _⟩ => ⟨S1024x2048, .f32⟩
  | .hbm, ⟨39, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  concatenates_S1024x2048_S1024x2048_S1024x4096_d1 : Shape.Concatenates [S1024x2048, S1024x2048] S1024x4096 1
  slices_S1024x8192_S1024x2048_0_0 : S1024x8192.Slices ![0, 0] S1024x2048
  slices_S1024x8192_S1024x2048_0_2048 : S1024x8192.Slices ![0, 2048] S1024x2048
  slices_S1024x8192_S1024x2048_0_4096 : S1024x8192.Slices ![0, 4096] S1024x2048
  slices_S1024x8192_S1024x2048_0_6144 : S1024x8192.Slices ![0, 6144] S1024x2048
  bcast_S_S1024x2048 : S_.BroadcastsInDim S1024x2048 (![] : Fin 0 → Fin S1024x2048.rank)
  dot_S1024x4096_S4096x8192_S1024x8192_1_0_0_1_n_n_wf : DotDims.WF S1024x4096 S4096x8192 S1024x8192 [1] [0] [0] [1] [] []

variable [Facts₀]

def dot_S1024x4096_S4096x8192_S1024x8192_1_0_0_1_n_n : DotDims S1024x4096 S4096x8192 S1024x8192 where
  lhsContracting := [1]
  rhsContracting := [0]
  lhsNonContracting := [0]
  rhsNonContracting := [1]
  lhsBatch := []
  rhsBatch := []
  wf := dot_S1024x4096_S4096x8192_S1024x8192_1_0_0_1_n_n_wf

class Facts : Prop extends Facts₀ where

variable [Facts]
-- ==== Proof.KernelPieces.lean ====
/-
  What each control case of the kernel body leaves behind, as values of what it loaded.

  At the first point of a row block (case A) the body zeroes the accumulator and adds the point's block product: the
  accumulator ends at `step x w zero`. At a middle point (case B) it ends at `step x w acc` over what the point before
  left. At the last point (case C) likewise, and the two output blocks hold the cell's new hidden state and new cell
  state of that final accumulator and the old state's block.
-/
import proofs.«166433_j8632884265137_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Case A: the accumulator is zeroed, then gains the point's block product. -/
theorem acc_A (c : Dev nD) (i : grid0.Coords) (arg2 : Memref sig .tc .vmem S256x256 .f32) (harg2 : arg2.IsWhole) (arg3 : Memref sig .tc .vmem S256x8192 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x8192 .f32) (harg7 : arg7.IsWhole) (hc0 : cond0_0 i) (hc1 : ¬cond0_1 i)
    (x0 : Vec F S256x256 .f32) (x1 : Vec F S256x8192 .f32) (x2 : Vec F S256x2048 .f32) :
    sout0_A_0 c i arg2 harg2 arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S256x8192) hz, View.readCov_unit_zero (S := S256x8192) _ hz]
  simp only [View.readAt_eq_ld, harg2.read_unread, harg3.read_unread, harg4.read_unread, harg7.read_unread, View.readCov_unit_zero (S := S256x8192) _ hz, View.ld_unit_zero (S := S256x256) hz, View.ld_unit_zero (S := S256x8192) hz, View.ld_unit_zero (S := S256x2048) hz]

/-- Case B: the accumulator gains the point's block product over what the point before left. -/
theorem acc_B (c : Dev nD) (i : grid0.Coords) (arg2 : Memref sig .tc .vmem S256x256 .f32) (harg2 : arg2.IsWhole) (arg3 : Memref sig .tc .vmem S256x8192 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x8192 .f32) (harg7 : arg7.IsWhole) (hc0 : ¬cond0_0 i) (hc1 : ¬cond0_1 i)
    (x0 : Vec F S256x256 .f32) (x1 : Vec F S256x8192 .f32) (x2 : Vec F S256x2048 .f32) (xs0 : Vec F S256x8192 .f32) :
    sout0_B_0 c i arg2 harg2 arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg2.read_unread, harg3.read_unread, harg4.read_unread, harg7.read_unread, View.readCov_unit_zero (S := S256x8192) _ hz, View.ld_unit_zero (S := S256x256) hz, View.ld_unit_zero (S := S256x8192) hz, View.ld_unit_zero (S := S256x2048) hz]

/-- Case C: the accumulator likewise; -/
theorem acc_C (c : Dev nD) (i : grid0.Coords) (arg2 : Memref sig .tc .vmem S256x256 .f32) (harg2 : arg2.IsWhole) (arg3 : Memref sig .tc .vmem S256x8192 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x8192 .f32) (harg7 : arg7.IsWhole) (hc0 : ¬cond0_0 i) (hc1 : cond0_1 i)
    (x0 : Vec F S256x256 .f32) (x1 : Vec F S256x8192 .f32) (x2 : Vec F S256x2048 .f32) (xs0 : Vec F S256x8192 .f32) :
    sout0_C_0 c i arg2 harg2 arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg2.read_unread, harg3.read_unread, harg4.read_unread, harg7.read_unread, View.readCov_unit_zero (S := S256x8192) _ hz, View.ld_unit_zero (S := S256x256) hz, View.ld_unit_zero (S := S256x8192) hz, View.ld_unit_zero (S := S256x2048) hz]

/-- the hidden-state block is the new hidden state of the final accumulator and the old state's block; -/
theorem hid_C (c : Dev nD) (i : grid0.Coords) (arg2 : Memref sig .tc .vmem S256x256 .f32) (harg2 : arg2.IsWhole) (arg3 : Memref sig .tc .vmem S256x8192 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x8192 .f32) (harg7 : arg7.IsWhole) (hc0 : ¬cond0_0 i) (hc1 : cond0_1 i)
    (x0 : Vec F S256x256 .f32) (x1 : Vec F S256x8192 .f32) (x2 : Vec F S256x2048 .f32) (xs0 : Vec F S256x8192 .f32) :
    out0_C_3 c i arg2 harg2 arg3 harg3 arg4 harg4 arg5 harg5 arg6 harg6 arg7 harg7 hc0 hc1 x0 x1 x2 xs0 = k0_pay4 (k0_pay2 x0 x1 xs0) x2 := by
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg2.read_unread, harg3.read_unread, harg4.read_unread, harg7.read_unread, View.readCov_unit_zero (S := S256x8192) _ hz, View.ld_unit_zero (S := S256x256) hz, View.ld_unit_zero (S := S256x8192) hz, View.ld_unit_zero (S := S256x2048) hz]

/-- and the cell-state block the new cell state of them. -/
theorem cell_C (c : Dev nD) (i : grid0.Coords) (arg2 : Memref sig .tc .vmem S256x256 .f32) (harg2 : arg2.IsWhole) (arg3 : Memref sig .tc .vmem S256x8192 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x8192 .f32) (harg7 : arg7.IsWhole) (hc0 : ¬cond0_0 i) (hc1 : cond0_1 i)
    (x0 : Vec F S256x256 .f32) (x1 : Vec F S256x8192 .f32) (x2 : Vec F S256x2048 .f32) (xs0 : Vec F S256x8192 .f32) :
    out0_C_4 c i arg2 harg2 arg3 harg3 arg4 harg4 arg5 harg5 arg6 harg6 arg7 harg7 hc0 hc1 x0 x1 x2 xs0 = k0_pay3 (k0_pay2 x0 x1 xs0) x2 := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg2.read_unread, harg3.read_unread, harg4.read_unread, harg7.read_unread, View.readCov_unit_zero (S := S256x8192) _ hz, View.ld_unit_zero (S := S256x256) hz, View.ld_unit_zero (S := S256x8192) hz, View.ld_unit_zero (S := S256x2048) hz]

end Cert.KernelIdeal.Pieces

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.LstmSpec.lean ====
/-
  The LSTM cell as ONE function of its argument arrays, over the extended reals.

  For the joined input `A` ([1024, 4096]: `x` beside `h`), the weights `B` ([4096, 8192]) and the cell state `c`
  ([1024, 2048]) the pre-activation is `z (r, o) = ∑ k, A (r, k) · B (k, o)`; its four column bands of width 2048 are the
  gates `i`, `f`, `g`, `o`, and

    c_new (r, u) = σ (z (r, 2048 + u)) · c (r, u) + σ (z (r, u)) · tanh (z (r, 4096 + u))
    h_new (r, u) = σ (z (r, 6144 + u)) · tanh (c_new (r, u))

  with `σ x = 1 / (1 + e^(-x))`. The contraction is also written as a sum over the naturals below 4096 (the index read
  modulo 4096, so that the summand is defined on every natural), which splits into sixteen consecutive blocks of 256:
  addition of extended reals is commutative and associative, so the blocked sum IS the whole sum — no finiteness is used.
-/
import Idealize.ShloMosaic.PureOps.Ideal.Laws
import Idealize.ShloMosaic.Lib.ValueIdx

noncomputable section

open scoped BigOperators
open Idealize.ShloMosaic Idealize.ShloMosaic.ValueIdx

namespace Cert.Lstm

/-- The `k`-th product of entry `(r, o)` of `A · B`, `k` read modulo 4096. -/
def term (A : (⟨2, ![1024, 4096]⟩ : Shape).Idx → EReal) (B : (⟨2, ![4096, 8192]⟩ : Shape).Idx → EReal)
    (r : Fin 1024) (o : Fin 8192) (k : ℕ) : EReal :=
  A (ix2 r ⟨k % 4096, Nat.mod_lt _ (by norm_num)⟩) * B (ix2 ⟨k % 4096, Nat.mod_lt _ (by norm_num)⟩ o)

/-- Entry `(r, o)` of the product `A · B`. -/
def preact (A : (⟨2, ![1024, 4096]⟩ : Shape).Idx → EReal) (B : (⟨2, ![4096, 8192]⟩ : Shape).Idx → EReal)
    (r : Fin 1024) (o : Fin 8192) : EReal :=
  ∑ k : Fin 4096, A (ix2 r k) * B (ix2 k o)

/-- Below 4096 the modulus does nothing. -/
theorem term_lt (A : (⟨2, ![1024, 4096]⟩ : Shape).Idx → EReal) (B : (⟨2, ![4096, 8192]⟩ : Shape).Idx → EReal)
    (r : Fin 1024) (o : Fin 8192) (k : Fin 4096) (n : ℕ) (hn : n = k.val) :
    term A B r o n = A (ix2 r k) * B (ix2 k o) := by
  subst hn
  unfold term
  have e : (⟨k.val % 4096, Nat.mod_lt _ (by norm_num)⟩ : Fin 4096) = k := Fin.ext (Nat.mod_eq_of_lt k.isLt)
  rw [e]

/-- The product's entry as a sum over the naturals below 4096. -/
theorem preact_eq_range (A : (⟨2, ![1024, 4096]⟩ : Shape).Idx → EReal) (B : (⟨2, ![4096, 8192]⟩ : Shape).Idx → EReal)
    (r : Fin 1024) (o : Fin 8192) : preact A B r o = ∑ k ∈ Finset.range 4096, term A B r o k := by
  rw [Finset.sum_range]
  exact Finset.sum_congr rfl fun k _ => (term_lt A B r o k _ rfl).symm

/-- A sum over the naturals below `m · n` is the sum of its `n` consecutive blocks of length `m`. -/
theorem sum_range_blocks {M : Type*} [AddCommMonoid M] (f : ℕ → M) (m : ℕ) :
    ∀ n : ℕ, ∑ k ∈ Finset.range (m * n), f k = ∑ s ∈ Finset.range n, ∑ j ∈ Finset.range m, f (m * s + j)
  | 0 => by simp
  | n + 1 => by rw [Nat.mul_succ, Finset.sum_range_add, sum_range_blocks f m n, Finset.sum_range_succ]

/-- The product's entry as the sum of its sixteen blocks of 256 products. -/
theorem preact_eq_blocks (A : (⟨2, ![1024, 4096]⟩ : Shape).Idx → EReal) (B : (⟨2, ![4096, 8192]⟩ : Shape).Idx → EReal)
    (r : Fin 1024) (o : Fin 8192) :
    preact A B r o = ∑ s ∈ Finset.range 16, ∑ j : Fin 256, term A B r o (256 * s + j.val) := by
  rw [preact_eq_range, show (4096 : ℕ) = 256 * 16 from rfl, sum_range_blocks]
  exact Finset.sum_congr rfl fun s _ => Finset.sum_range _

/-- The new cell state at `(r, u)` from a pre-activation `z`: forget gate times old state plus input gate times candidate. -/
def cNew (z : Fin 1024 → Fin 8192 → EReal) (c : (⟨2, ![1024, 2048]⟩ : Shape).Idx → EReal) (r : Fin 1024) (u : Fin 2048) : EReal :=
  Ideal.logistic (z r ⟨2048 + u.val, by omega⟩) * c (ix2 r u)
    + Ideal.logistic (z r ⟨u.val, by omega⟩) * Ideal.tanh (z r ⟨4096 + u.val, by omega⟩)

/-- The new hidden state at `(r, u)`: output gate times `tanh` of the new cell state. -/
def hNew (z : Fin 1024 → Fin 8192 → EReal) (c : (⟨2, ![1024, 2048]⟩ : Shape).Idx → EReal) (r : Fin 1024) (u : Fin 2048) : EReal :=
  Ideal.logistic (z r ⟨6144 + u.val, by omega⟩) * Ideal.tanh (cNew z c r u)

/-- The new cell state as an array of the three argument arrays. -/
def cOut (A : (⟨2, ![1024, 4096]⟩ : Shape).Idx → EReal) (B : (⟨2, ![4096, 8192]⟩ : Shape).Idx → EReal)
    (c : (⟨2, ![1024, 2048]⟩ : Shape).Idx → EReal) : (⟨2, ![1024, 2048]⟩ : Shape).Idx → EReal :=
  fun i => cNew (preact A B) c (i 0) (i 1)

/-- The new hidden state as an array of the three argument arrays. -/
def hOut (A : (⟨2, ![1024, 4096]⟩ : Shape).Idx → EReal) (B : (⟨2, ![4096, 8192]⟩ : Shape).Idx → EReal)
    (c : (⟨2, ![1024, 2048]⟩ : Shape).Idx → EReal) : (⟨2, ![1024, 2048]⟩ : Shape).Idx → EReal :=
  fun i => hNew (preact A B) c (i 0) (i 1)

end Cert.Lstm

end
-- ==== Proof.KernelPayload.lean ====
/-
  The kernel body's arithmetic at one entry, over the extended reals.

  The body holds a [256, 8192] accumulator. Each grid point adds to it the product of its [256, 256] block of the joined
  input with its [256, 8192] block of the weights, so the entry `(p, o)` gains `∑ j, x (p, j) · w (j, o)` (the change
  of float format before the matrix unit is the identity here). At the last point of a row block the four column bands
  of the accumulator are the gates, and the two stores hold the LSTM cell's new state and new hidden state of them.
-/
import proofs.«166433_j8632884265137_1_alg».proof.Proof.Gen.KernelIdeal.Skeleton
import proofs.«166433_j8632884265137_1_alg».proof.Proof.LibPlainMatmul
import proofs.«166433_j8632884265137_1_alg».proof.Proof.LstmSpec
import Idealize.ShloMosaic.Lib.ValueLayout
import Idealize.ShloMosaic.Lib.Pipeline.Value

noncomputable section

open scoped BigOperators
open Idealize.ShloMosaic Idealize.ShloMosaic.ValueIdx

namespace Cert.KernelIdeal.Pay

open Cert.KernelIdeal Cert.KernelIdeal.Gen

/-! ## The block product's dimension numbers: rows of the left operand, columns of the right, one contracted axis -/

theorem lhs_0 (i : S256x8192.Idx) (q : dot_S256x256_S256x8192_S256x8192_1_0_0_1_n_n.contr.Idx) :
    (dot_S256x256_S256x8192_S256x8192_1_0_0_1_n_n.lhsIdx i q 0).val = (i 0).val := by
  unfold DotDims.lhsIdx
  rw [dif_neg (show ¬(0 : Fin S256x256.rank) ∈ dot_S256x256_S256x8192_S256x8192_1_0_0_1_n_n.lhsBatch by decide), dif_pos (show (0 : Fin S256x256.rank) ∈ dot_S256x256_S256x8192_S256x8192_1_0_0_1_n_n.lhsNonContracting by decide)]
  rfl
theorem lhs_1 (i : S256x8192.Idx) (q : dot_S256x256_S256x8192_S256x8192_1_0_0_1_n_n.contr.Idx) :
    (dot_S256x256_S256x8192_S256x8192_1_0_0_1_n_n.lhsIdx i q 1).val = (q ⟨0, by decide⟩).val :=
  dot_S256x256_S256x8192_S256x8192_1_0_0_1_n_n.lhsIdx_val_of_single rfl i q
theorem rhs_0 (i : S256x8192.Idx) (q : dot_S256x256_S256x8192_S256x8192_1_0_0_1_n_n.contr.Idx) :
    (dot_S256x256_S256x8192_S256x8192_1_0_0_1_n_n.rhsIdx i q 0).val = (q ⟨0, by decide⟩).val :=
  dot_S256x256_S256x8192_S256x8192_1_0_0_1_n_n.rhsIdx_val_of_single rfl i q
theorem rhs_1 (i : S256x8192.Idx) (q : dot_S256x256_S256x8192_S256x8192_1_0_0_1_n_n.contr.Idx) :
    (dot_S256x256_S256x8192_S256x8192_1_0_0_1_n_n.rhsIdx i q 1).val = (i 1).val := by
  unfold DotDims.rhsIdx
  rw [dif_neg (show ¬(1 : Fin S256x8192.rank) ∈ dot_S256x256_S256x8192_S256x8192_1_0_0_1_n_n.rhsBatch by decide), dif_pos (show (1 : Fin S256x8192.rank) ∈ dot_S256x256_S256x8192_S256x8192_1_0_0_1_n_n.rhsNonContracting by decide)]
  rfl

/-! ## The three payloads at an entry -/

/-- The reset stores zero. -/
theorem pay1_apply (i : S256x8192.Idx) : k0_pay1 (F := Ideal) i = 0 := by
  unfold k0_pay1
  simp only [shapeCast_self]
  show Ideal.ofBits .f32 0x00000000#32 = 0
  exact Ideal.ofBits_zero_f32

/-- One accumulation step: entry `(p, o)` gains the block product's entry. -/
theorem pay2_apply (x : Vec Ideal S256x256 .f32) (w : Vec Ideal S256x8192 .f32) (acc : Vec Ideal S256x8192 .f32)
    (p : Fin 256) (o : Fin 8192) :
    k0_pay2 (F := Ideal) x w acc (ix2 p o) = acc (ix2 p o) + ∑ j : Fin 256, x (ix2 p j) * w (ix2 j o) := by
  unfold k0_pay2
  simp only [shapeCast_self]
  rw [addf_apply]
  exact congrArg (acc (ix2 p o) + ·) (Cert.LibPlainMatmul.matmul_zero_apply dot_S256x256_S256x8192_S256x8192_1_0_0_1_n_n none rfl rfl lhs_0 lhs_1 rhs_0 rhs_1
    (truncf .bf16 x bitsLt_bf16_f32) (truncf .bf16 w bitsLt_bf16_f32) p o)

/-- The new cell state's entry from the accumulator's bands `f` (from column 2048), `i` (from 0), `g` (from 4096). -/
theorem pay3_apply (acc : Vec Ideal S256x8192 .f32) (cb : Vec Ideal S256x2048 .f32) (p : Fin 256) (u : Fin 2048) :
    k0_pay3 (F := Ideal) acc cb (ix2 p u)
      = Ideal.logistic (acc (ix2 p ⟨2048 + u.val, by omega⟩)) * cb (ix2 p u)
        + Ideal.logistic (acc (ix2 p ⟨u.val, by omega⟩)) * Ideal.tanh (acc (ix2 p ⟨4096 + u.val, by omega⟩)) := by
  have e0 := slice2_axis1_apply 0 acc slices_S256x8192_o0_0_S256x2048 p u ⟨u.val, by omega⟩ (Nat.zero_add _).symm
  have e1 := slice2_axis1_apply 2048 acc slices_S256x8192_o0_2048_S256x2048 p u ⟨2048 + u.val, by omega⟩ rfl
  have e2 := slice2_axis1_apply 4096 acc slices_S256x8192_o0_4096_S256x2048 p u ⟨4096 + u.val, by omega⟩ rfl
  unfold k0_pay3
  show Ideal.logistic (extractStridedSlice S256x2048 ![0, 2048] acc slices_S256x8192_o0_2048_S256x2048 (ix2 p u)) * cb (ix2 p u)
      + Ideal.logistic (extractStridedSlice S256x2048 ![0, 0] acc slices_S256x8192_o0_0_S256x2048 (ix2 p u))
        * Ideal.tanh (extractStridedSlice S256x2048 ![0, 4096] acc slices_S256x8192_o0_4096_S256x2048 (ix2 p u)) = _
  rw [e0, e1, e2]

/-- The new hidden state's entry: the band `o` (from column 6144) gates `tanh` of the new cell state. -/
theorem pay4_apply (acc : Vec Ideal S256x8192 .f32) (cb : Vec Ideal S256x2048 .f32) (p : Fin 256) (u : Fin 2048) :
    k0_pay4 (F := Ideal) acc cb (ix2 p u)
      = Ideal.logistic (acc (ix2 p ⟨6144 + u.val, by omega⟩)) * Ideal.tanh (k0_pay3 (F := Ideal) acc cb (ix2 p u)) := by
  have e3 := slice2_axis1_apply 6144 acc slices_S256x8192_o0_6144_S256x2048 p u ⟨6144 + u.val, by omega⟩ rfl
  unfold k0_pay4
  show Ideal.logistic (extractStridedSlice S256x2048 ![0, 6144] acc slices_S256x8192_o0_6144_S256x2048 (ix2 p u))
      * Ideal.tanh (k0_pay3 (F := Ideal) acc cb (ix2 p u)) = _
  rw [e3]

/-! ## Against the cell's specification -/

/-- If the accumulator's row `p` is the pre-activation's row `r` and the state block's row `p` is the state's row `r`,
    the stored cell state is the specification's. -/
theorem pay3_eq_cNew (acc : Vec Ideal S256x8192 .f32) (cb : Vec Ideal S256x2048 .f32)
    (z : Fin 1024 → Fin 8192 → EReal) (c : (⟨2, ![1024, 2048]⟩ : Shape).Idx → EReal) (p : Fin 256) (r : Fin 1024) (u : Fin 2048)
    (hz : ∀ o : Fin 8192, acc (ix2 p o) = z r o) (hc : cb (ix2 p u) = c (ix2 r u)) :
    k0_pay3 (F := Ideal) acc cb (ix2 p u) = Cert.Lstm.cNew z c r u := by
  rw [pay3_apply, hz, hz, hz, hc]
  rfl

/-- Likewise the stored hidden state. -/
theorem pay4_eq_hNew (acc : Vec Ideal S256x8192 .f32) (cb : Vec Ideal S256x2048 .f32)
    (z : Fin 1024 → Fin 8192 → EReal) (c : (⟨2, ![1024, 2048]⟩ : Shape).Idx → EReal) (p : Fin 256) (r : Fin 1024) (u : Fin 2048)
    (hz : ∀ o : Fin 8192, acc (ix2 p o) = z r o) (hc : cb (ix2 p u) = c (ix2 r u)) :
    k0_pay4 (F := Ideal) acc cb (ix2 p u) = Cert.Lstm.hNew z c r u := by
  rw [pay4_apply, pay3_eq_cNew acc cb z c p r u hz hc, hz]
  rfl

/-- The same two facts at any entry `y` of the block. -/
theorem pay3_eq_cNew_at (acc : Vec Ideal S256x8192 .f32) (cb : Vec Ideal S256x2048 .f32)
    (z : Fin 1024 → Fin 8192 → EReal) (c : (⟨2, ![1024, 2048]⟩ : Shape).Idx → EReal) (y : S256x2048.Idx) (r : Fin 1024)
    (hz : ∀ o : Fin 8192, acc (ix2 (y 0) o) = z r o) (hc : cb y = c (ix2 r (y 1))) :
    k0_pay3 (F := Ideal) acc cb y = Cert.Lstm.cNew z c r (y 1) := by
  obtain ⟨p, u, rfl⟩ : ∃ (p : Fin 256) (u : Fin 2048), y = ix2 p u := ⟨y 0, y 1, eq_ix2 y⟩
  exact pay3_eq_cNew acc cb z c p r u hz hc

theorem pay4_eq_hNew_at (acc : Vec Ideal S256x8192 .f32) (cb : Vec Ideal S256x2048 .f32)
    (z : Fin 1024 → Fin 8192 → EReal) (c : (⟨2, ![1024, 2048]⟩ : Shape).Idx → EReal) (y : S256x2048.Idx) (r : Fin 1024)
    (hz : ∀ o : Fin 8192, acc (ix2 (y 0) o) = z r o) (hc : cb y = c (ix2 r (y 1))) :
    k0_pay4 (F := Ideal) acc cb y = Cert.Lstm.hNew z c r (y 1) := by
  obtain ⟨p, u, rfl⟩ : ∃ (p : Fin 256) (u : Fin 2048), y = ix2 p u := ⟨y 0, y 1, eq_ix2 y⟩
  exact pay4_eq_hNew acc cb z c p r u hz hc

end Cert.KernelIdeal.Pay

end
-- ==== Proof.KernelValue.lean ====
/-
  The idealized kernel's two result arrays as functions of its argument arrays.

  The grid is 4 row blocks × 16 contraction blocks, point `t` at row block `t / 16` and contraction block `t % 16`. At
  point `t` the accumulator's entry `(p, o)` gains `∑ j < 256, xh (256·(t/16) + p, 256·(t%16) + j) · w (256·(t%16) + j, o)`;
  it is zeroed at the first point of each row block, so after point `t` it holds the first `t % 16 + 1` blocks of the
  contraction, and at the row block's last point the whole product's entry. There the two output blocks are stored, the
  LSTM cell's new hidden and cell state of that row block, and written back: the 4 flushed blocks tile each result.
-/
import proofs.«166433_j8632884265137_1_alg».proof.Proof.Gen.KernelIdeal.Value
import proofs.«166433_j8632884265137_1_alg».proof.Proof.KernelPieces
import proofs.«166433_j8632884265137_1_alg».proof.Proof.KernelPayload
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Cell

open Cert.KernelIdeal Cert.KernelIdeal.Gen

variable (m : (ℓ : Loc nD τ sig) → Buf (Elt Ideal) ℓ) (ρ : Dev nD → PrngReg)

/-! ## The arrays the region finds, and the windows' blocks -/

/-- The joined input `x ‖ h`, as the region finds it. -/
abbrev xh (c : Dev nD) : (⟨2, ![1024, 4096]⟩ : Shape).Idx → EReal := V m c main_v0
/-- The weights. -/
abbrev wt (c : Dev nD) : (⟨2, ![4096, 8192]⟩ : Shape).Idx → EReal := V m c main_arg3
/-- The old cell state. -/
abbrev cs (c : Dev nD) : (⟨2, ![1024, 2048]⟩ : Shape).Idx → EReal := V m c main_arg2

abbrev xblk (c : Dev nD) (t : Fin cfg0.N) : Vec Ideal S256x256 .f32 := iblk m c 0 t
abbrev wblk (c : Dev nD) (t : Fin cfg0.N) : Vec Ideal S256x8192 .f32 := iblk m c 1 t
abbrev cblk (c : Dev nD) (t : Fin cfg0.N) : Vec Ideal S256x2048 .f32 := iblk m c 2 t

/-- The printed index maps over the grid: point `t` is row block `t / 16`, contraction block `t % 16`. -/
theorem idx_facts : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val / 16 ∧ win0_3.index t (1 : Fin 2) = 0
    ∧ win0_4.index t (0 : Fin 2) = t.val / 16 ∧ win0_4.index t (1 : Fin 2) = 0 :=
  (by decide +kernel : ∀ t : Fin grid0.N, _)

/-- The input block's entry `(p, j)` at point `t` is the joined input at row `256·(t/16) + p`, column `256·(t%16) + j`. -/
theorem xblk_apply (c : Dev nD) (t : Fin cfg0.N) (p j : Fin 256) (r : Fin 1024) (k : Fin 4096)
    (hr : r.val = 256 * (t.val / 16) + p.val) (hk : k.val = 256 * (t.val % 16) + j.val) :
    xblk m c t (ix2 p j) = xh m c (ix2 r k) := by
  obtain ⟨e0, e1, -⟩ := idx_facts t
  unfold xblk iblk
  rw [View.read_apply]
  show V m c main_v0 _ = V m c main_v0 _
  congr 1
  funext a
  apply Fin.ext
  match a with
  | ⟨0, _⟩ => show win0_0.index t (0 : Fin 2) * 256 + 1 * p.val = r.val; omega
  | ⟨1, _⟩ => show win0_0.index t (1 : Fin 2) * 256 + 1 * j.val = k.val; omega

/-- The weight block's entry `(j, o)` at point `t` is the weights at row `256·(t%16) + j`, column `o`. -/
theorem wblk_apply (c : Dev nD) (t : Fin cfg0.N) (j : Fin 256) (o : Fin 8192) (k : Fin 4096)
    (hk : k.val = 256 * (t.val % 16) + j.val) :
    wblk m c t (ix2 j o) = wt m c (ix2 k o) := by
  obtain ⟨-, -, e2, e3, -⟩ := idx_facts t
  unfold wblk iblk
  rw [View.read_apply]
  show V m c main_arg3 _ = V m c main_arg3 _
  congr 1
  funext a
  apply Fin.ext
  match a with
  | ⟨0, _⟩ => show win0_1.index t (0 : Fin 2) * 256 + 1 * j.val = k.val; omega
  | ⟨1, _⟩ => show win0_1.index t (1 : Fin 2) * 8192 + 1 * o.val = o.val; omega

/-- The state block's entry `(p, u)` at point `t` is the old state at row `256·(t/16) + p`, column `u`. -/
theorem cblk_apply (c : Dev nD) (t : Fin cfg0.N) (y : S256x2048.Idx) (r : Fin 1024)
    (hr : r.val = 256 * (t.val / 16) + (y 0).val) :
    cblk m c t y = cs m c (ix2 r (y 1)) := by
  obtain ⟨-, -, -, -, e4, e5, -⟩ := idx_facts t
  unfold cblk iblk
  rw [View.read_apply]
  show V m c main_arg2 _ = V m c main_arg2 _
  congr 1
  funext a
  apply Fin.ext
  match a with
  | ⟨0, _⟩ => show win0_2.index t (0 : Fin 2) * 256 + 1 * (y 0).val = r.val; omega
  | ⟨1, _⟩ => show win0_2.index t (1 : Fin 2) * 2048 + 1 * (y 1).val = (y 1).val; omega

/-! ## One point's step of the accumulator -/

/-- Row `p` of row block `q`. -/
def rowOf (q : Fin 4) (p : Fin 256) : Fin 1024 := ⟨256 * q.val + p.val, by omega⟩

/-- What point `n` adds to the accumulator's entry `i` in row block `q`: contraction block `n % 16` of the product's entry. -/
def addend (c : Dev nD) (q : Fin 4) (n : ℕ) (i : S256x8192.Idx) : EReal :=
  ∑ j : Fin 256, Cert.Lstm.term (xh m c) (wt m c) (rowOf q (i 0)) (i 1) (256 * (n % 16) + j.val)

/-- The step's payload at point `n` of row block `q` adds that block. -/
theorem step_apply (c : Dev nD) (n : ℕ) (hb : n < cfg0.N) (q : Fin 4) (hq : n / 16 = q.val)
    (acc : Vec Ideal S256x8192 .f32) (i : S256x8192.Idx) :
    k0_pay2 (F := Ideal) (xblk m c ⟨n, hb⟩) (wblk m c ⟨n, hb⟩) acc i = acc i + addend m c q n i := by
  obtain ⟨p, o, rfl⟩ : ∃ (p : Fin 256) (o : Fin 8192), i = ix2 p o := ⟨i 0, i 1, eq_ix2 i⟩
  refine (Pay.pay2_apply (xblk m c ⟨n, hb⟩) (wblk m c ⟨n, hb⟩) acc p o).trans ?_
  unfold addend
  refine congrArg (acc (ix2 p o) + ·) (Finset.sum_congr rfl fun j _ => ?_)
  rw [xblk_apply m c ⟨n, hb⟩ p j (rowOf q p) ⟨256 * (n % 16) + j.val, by omega⟩
      (by show 256 * q.val + p.val = 256 * (n / 16) + p.val; omega) rfl,
    wblk_apply m c ⟨n, hb⟩ j o ⟨256 * (n % 16) + j.val, by omega⟩ rfl]
  exact (Cert.Lstm.term_lt _ _ _ _ ⟨256 * (n % 16) + j.val, by omega⟩ _ rfl).symm

/-- At the first point of a row block the accumulator is zeroed and stepped; -/
theorem scAt_first (c : Dev nD) (n : ℕ) (hb : n < cfg0.N) (acc : Vec Ideal S256x8192 .f32) (h0 : n % 16 = 0) :
    Value.scAt0_0 m c n hb acc = k0_pay2 (xblk m c ⟨n, hb⟩) (wblk m c ⟨n, hb⟩) (k0_pay1 (F := Ideal)) := by
  have h1 : ¬n % 16 = 15 := by omega
  unfold Value.scAt0_0
  rw [dif_pos h0, dif_neg h1]
  exact Pieces.acc_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N))

/-- at every other point it is stepped from what the point before left. -/
theorem scAt_later (c : Dev nD) (n : ℕ) (hb : n < cfg0.N) (acc : Vec Ideal S256x8192 .f32) (h0 : ¬n % 16 = 0) :
    Value.scAt0_0 m c n hb acc = k0_pay2 (xblk m c ⟨n, hb⟩) (wblk m c ⟨n, hb⟩) acc := by
  unfold Value.scAt0_0
  by_cases h1 : n % 16 = 15
  · rw [dif_neg h0, dif_pos h1]
    exact Pieces.acc_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc
  · rw [dif_neg h0, dif_neg h1]
    exact Pieces.acc_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc

/-! ## The accumulator after each point -/

/-- After point `t` of row block `q` the accumulator's entry is the sum of the contraction blocks `0 … t % 16`. -/
theorem scratch_apply (c : Dev nD) (t : Fin cfg0.N) (q : Fin 4) (hq : t.val / 16 = q.val) (i : S256x8192.Idx) :
    (outsAt0 m c t.val t.isLt).2.2 i = ∑ s ∈ Finset.range (t.val % 16 + 1), addend m c q s i := by
  have hN : cfg0.N = 64 := N_0
  have ht := t.isLt
  have key := Pipeline.accAt_add_apply (N := cfg0.N) (ι := S256x8192.Idx) (β := EReal)
    (fun n h => Value.scAt0_0 m c n h (VS0_0.read (Elt Ideal) VS0_0.junk)) (Value.scAt0_0 m c) (fun _ => 0) (addend m c q)
    (16 * (t.val / 16)) 15
    (fun h i => by
      show Value.scAt0_0 m c (16 * (t.val / 16)) h (VS0_0.read (Elt Ideal) VS0_0.junk) i = 0 + addend m c q (16 * (t.val / 16)) i
      rw [scAt_first m c _ h _ (by omega), step_apply m c _ h q (by omega) _ i, Pay.pay1_apply])
    (fun n h acc i hlo hhi => by
      show Value.scAt0_0 m c n h acc i = acc i + addend m c q n i
      rw [scAt_later m c n h acc (by omega), step_apply m c n h q (by omega) acc i])
    (t.val % 16) (by omega) (by omega) i
  rw [Value.soutsAt0_0_eq m c t, key, zero_add]
  refine Finset.sum_congr rfl fun s _ => ?_
  unfold addend
  rw [show (16 * (t.val / 16) + s) % 16 = s % 16 from by omega]

/-- At the last point of row block `q` it is the whole product's entry. -/
theorem acc_full (c : Dev nD) (t : Fin cfg0.N) (q : Fin 4) (hq : t.val / 16 = q.val) (h1 : t.val % 16 = 15)
    (p : Fin 256) (o : Fin 8192) :
    (outsAt0 m c t.val t.isLt).2.2 (ix2 p o) = Cert.Lstm.preact (xh m c) (wt m c) (rowOf q p) o := by
  rw [scratch_apply m c t q hq, h1, Cert.Lstm.preact_eq_blocks]
  refine Finset.sum_congr rfl fun s hs => ?_
  unfold addend
  rw [Nat.mod_eq_of_lt (Finset.mem_range.mp hs)]

/-! ## The outputs at the flushing points -/

/-- At a row block's last point the output blocks are the cell's new states of the final accumulator. -/
theorem outs_last (c : Dev nD) (t : Fin cfg0.N) (h1 : t.val % 16 = 15) :
    (outsAt0 m c t.val t.isLt).1 = k0_pay4 ((outsAt0 m c t.val t.isLt).2.2) (cblk m c t)
    ∧ (outsAt0 m c t.val t.isLt).2.1 = k0_pay3 ((outsAt0 m c t.val t.isLt).2.2) (cblk m c t) := by
  have h0 : ¬t.val % 16 = 0 := by omega
  rw [outsAt0_C m c t h0 h1]
  dsimp only
  rw [Pieces.hid_C c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) _,
    Pieces.cell_C c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) _,
    Pieces.acc_C c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) _]
  exact ⟨rfl, rfl⟩

/-- What a flushing point writes back to the hidden-state result is its block of the specification. -/
theorem flushed_h (c : Dev nD) (t : Fin cfg0.N) (hf : (cfg0.win 3).flush t = true) :
    (dats m 0 c).flushed 3 t = ((cfg0.win 3).blk t).view.read (Elt Ideal) (Cert.Lstm.hOut (xh m c) (wt m c) (cs m c)) := by
  have h1 : t.val % 16 = 15 := (flush0_3 t).mp hf
  have hN : cfg0.N = 64 := N_0
  have ht := t.isLt
  obtain ⟨q, hq⟩ : ∃ q : Fin 4, t.val / 16 = q.val := ⟨⟨t.val / 16, by omega⟩, rfl⟩
  obtain ⟨-, -, -, -, -, -, e6, e7, -, -⟩ := idx_facts t
  rw [Value.flushed3]
  funext y
  show (outsAt0 m c t.val t.isLt).1 y = Cert.Lstm.hOut (xh m c) (wt m c) (cs m c) (((cfg0.win 3).blk t).view.emb y)
  rw [(outs_last m c t h1).1]
  refine (Pay.pay4_eq_hNew_at _ _ (Cert.Lstm.preact (xh m c) (wt m c)) (cs m c) y (rowOf q (y 0))
    (fun o => acc_full m c t q hq h1 (y 0) o) (cblk_apply m c t y _ (by show 256 * q.val + (y 0).val = _; omega))).trans ?_
  unfold Cert.Lstm.hOut
  congr 1 <;> apply Fin.ext
  · show 256 * q.val + (y 0).val = win0_3.index t (0 : Fin 2) * 256 + 1 * (y 0).val; omega
  · show (y 1).val = win0_3.index t (1 : Fin 2) * 2048 + 1 * (y 1).val; omega

/-- Likewise to the cell-state result. -/
theorem flushed_c (c : Dev nD) (t : Fin cfg0.N) (hf : (cfg0.win 4).flush t = true) :
    (dats m 0 c).flushed 4 t = ((cfg0.win 4).blk t).view.read (Elt Ideal) (Cert.Lstm.cOut (xh m c) (wt m c) (cs m c)) := by
  have h1 : t.val % 16 = 15 := (flush0_4 t).mp hf
  have hN : cfg0.N = 64 := N_0
  have ht := t.isLt
  obtain ⟨q, hq⟩ : ∃ q : Fin 4, t.val / 16 = q.val := ⟨⟨t.val / 16, by omega⟩, rfl⟩
  obtain ⟨-, -, -, -, -, -, -, -, e8, e9⟩ := idx_facts t
  rw [Value.flushed4]
  funext y
  show (outsAt0 m c t.val t.isLt).2.1 y = Cert.Lstm.cOut (xh m c) (wt m c) (cs m c) (((cfg0.win 4).blk t).view.emb y)
  rw [(outs_last m c t h1).2]
  refine (Pay.pay3_eq_cNew_at _ _ (Cert.Lstm.preact (xh m c) (wt m c)) (cs m c) y (rowOf q (y 0))
    (fun o => acc_full m c t q hq h1 (y 0) o) (cblk_apply m c t y _ (by show 256 * q.val + (y 0).val = _; omega))).trans ?_
  unfold Cert.Lstm.cOut
  congr 1 <;> apply Fin.ext
  · show 256 * q.val + (y 0).val = win0_4.index t (0 : Fin 2) * 256 + 1 * (y 0).val; omega
  · show (y 1).val = win0_4.index t (1 : Fin 2) * 2048 + 1 * (y 1).val; omega

/-! ## The flushed blocks tile each result -/

/-- Row `i 0` lies in the block the last point of row block `i 0 / 256` writes back. -/
theorem cover_h (i : S1024x2048.Idx) : ∃ t : Fin cfg0.N, (cfg0.win 3).flush t = true ∧ i ∈ ((cfg0.win 3).blk t).view.set := by
  have hN : cfg0.N = 64 := N_0
  have hi0 : (i 0).val < 1024 := (i 0).isLt
  have hi1 : (i 1).val < 2048 := (i 1).isLt
  let t : Fin cfg0.N := ⟨16 * ((i 0).val / 256) + 15, by omega⟩
  have htv : t.val = 16 * ((i 0).val / 256) + 15 := rfl
  obtain ⟨-, -, -, -, -, -, e6, e7, -, -⟩ := idx_facts t
  refine ⟨t, (flush0_3 t).mpr (by omega), ?_⟩
  show i ∈ ((View.whole main_v1_0).slice (win0_3.rect t)).set
  rw [View.set_slice_whole, Rect.mem_set_unit]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

theorem cover_c (i : S1024x2048.Idx) : ∃ t : Fin cfg0.N, (cfg0.win 4).flush t = true ∧ i ∈ ((cfg0.win 4).blk t).view.set := by
  have hN : cfg0.N = 64 := N_0
  have hi0 : (i 0).val < 1024 := (i 0).isLt
  have hi1 : (i 1).val < 2048 := (i 1).isLt
  let t : Fin cfg0.N := ⟨16 * ((i 0).val / 256) + 15, by omega⟩
  have htv : t.val = 16 * ((i 0).val / 256) + 15 := rfl
  obtain ⟨-, -, -, -, -, -, -, -, e8, e9⟩ := idx_facts t
  refine ⟨t, (flush0_4 t).mpr (by omega), ?_⟩
  show i ∈ ((View.whole main_v1_1).slice (win0_4.rect t)).set
  rw [View.set_slice_whole, Rect.mem_set_unit]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 2048 ≤ (i 1).val ∧ (i 1).val < win0_4.index t (1 : Fin 2) * 2048 + 2048; omega

/-- The hidden-state result after the run. -/
theorem final_h (c : Dev nD) : (dats m 0 c).arrAt 3 cfg0.N = Cert.Lstm.hOut (xh m c) (wt m c) (cs m c) :=
  (dats m 0 c).arrAt_eq_of_cover 3 (Cert.Lstm.hOut (xh m c) (wt m c) (cs m c)) (flushed_h m c) cover_h

/-- The cell-state result after the run. -/
theorem final_c (c : Dev nD) : (dats m 0 c).arrAt 4 cfg0.N = Cert.Lstm.cOut (xh m c) (wt m c) (cs m c) :=
  (dats m 0 c).arrAt_eq_of_cover 4 (Cert.Lstm.cOut (xh m c) (wt m c) (cs m c)) (flushed_c m c) cover_c

/-! ## The arrays in terms of the arguments, and the run -/

/-- The joined input is the host's concatenation of the first two arguments along the columns. -/
theorem xh_eq (c : Dev nD) : xh m c = concatenate S1024x4096 1
    [⟨S1024x2048, m ((c : Thread nD τ).loc main_arg0)⟩, ⟨S1024x2048, m ((c : Thread nD τ).loc main_arg1)⟩]
    concatenates_S1024x2048_S1024x2048_S1024x4096_d1 := by
  dsimp only [xh, Gen.V, Gen.hostOps0]
  after_results

/-- The cell as one function of the four arguments' launch contents: hidden state, then cell state. -/
abbrev hRes (c : Dev nD) : (⟨2, ![1024, 2048]⟩ : Shape).Idx → EReal :=
  Cert.Lstm.hOut (concatenate S1024x4096 1
    [⟨S1024x2048, m ((c : Thread nD τ).loc main_arg0)⟩, ⟨S1024x2048, m ((c : Thread nD τ).loc main_arg1)⟩]
    concatenates_S1024x2048_S1024x2048_S1024x4096_d1) (m ((c : Thread nD τ).loc main_arg3)) (m ((c : Thread nD τ).loc main_arg2))
abbrev cRes (c : Dev nD) : (⟨2, ![1024, 2048]⟩ : Shape).Idx → EReal :=
  Cert.Lstm.cOut (concatenate S1024x4096 1
    [⟨S1024x2048, m ((c : Thread nD τ).loc main_arg0)⟩, ⟨S1024x2048, m ((c : Thread nD τ).loc main_arg1)⟩]
    concatenates_S1024x2048_S1024x2048_S1024x4096_d1) (m ((c : Thread nD τ).loc main_arg3)) (m ((c : Thread nD τ).loc main_arg2))

theorem final_h' (c : Dev nD) : (dats m 0 c).arrAt 3 cfg0.N = hRes m c := by
  rw [final_h, xh_eq]
  show Cert.Lstm.hOut _ (V m c main_arg3) (V m c main_arg2) = _
  rw [V_main_arg3, V_main_arg2]

theorem final_c' (c : Dev nD) : (dats m 0 c).arrAt 4 cfg0.N = cRes m c := by
  rw [final_c, xh_eq]
  show Cert.Lstm.cOut _ (V m c main_arg3) (V m c main_arg2) = _
  rw [V_main_arg3, V_main_arg2]

/-- Every weakly fair execution ends with the two results at the cell's function of the arguments, the arguments unchanged. -/
theorem run : θ_run defs (onTc (τ := τ) (main (F := Ideal))) ⟨m, fun _ => 0, ρ⟩ fun r => ∀ c : Dev nD,
      r.2.mem ((c : Thread nD τ).loc main_v1_0) = hRes m c
      ∧ r.2.mem ((c : Thread nD τ).loc main_v1_1) = cRes m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_h' m c), (h c).2.1.trans (final_c' m c), (h c).2.2⟩)
    (Value.run_blocks m ρ)

end Cert.KernelIdeal.Cell

end
-- ==== Proof.ReferenceValue.lean ====
/-
  The reference's two results are the LSTM cell's specification of its arguments.

  The reference joins `x` and `h`, multiplies by the weights in ONE contraction over all 4096 columns, cuts the product
  into the four gate bands, and spells the sigmoid as `1 / (1 + e^(-z))`: over the extended reals that expression is the
  sigmoid's definition, constant one the real one, so entry by entry the results are `cNew` and `hNew` of the product.
-/
import proofs.«166433_j8632884265137_1_alg».proof.Proof.Gen.ReferenceIdeal.Read
import proofs.«166433_j8632884265137_1_alg».proof.Proof.LstmSpec
import Idealize.ShloMosaic.Lib.IdealHost

noncomputable section

open scoped BigOperators
open Idealize.ShloMosaic Idealize.ShloMosaic.ValueIdx

namespace Cert.ReferenceIdeal.Cell

open Cert.ReferenceIdeal Cert.ReferenceIdeal.Gen Cert.ReferenceIdeal.Read

variable (x0 x1 x2 : (⟨S1024x2048, .f32⟩ : BufTy).Contents (Elt Ideal)) (x3 : (⟨S4096x8192, .f32⟩ : BufTy).Contents (Elt Ideal))

/-- The host's contraction at `(r, o)` is the product's entry. -/
theorem preact_apply (r : Fin 1024) (o : Fin 8192) :
    val_main_v1 (F := Ideal) x0 x1 x3 (ix2 r o) = Cert.Lstm.preact (val_main_v0 (F := Ideal) x0 x1) x3 r o := by
  rw [val_main_v1_apply]
  unfold Cert.Lstm.preact
  refine Finset.sum_congr rfl fun k _ => ?_
  have el : lidx_main_v1 (ix2 r o) k = ix2 r k := funext fun a => Fin.ext (by
    match a with
    | ⟨0, _⟩ => rfl
    | ⟨1, _⟩ => rfl)
  have er : ridx_main_v1 (ix2 r o) k = ix2 k o := funext fun a => Fin.ext (by
    match a with
    | ⟨0, _⟩ => rfl
    | ⟨1, _⟩ => rfl)
  rw [el, er]

/-- `1 / (1 + e^(-z))` in the host's operations, with the constant one's bit pattern, is the sigmoid. -/
theorem sigmoid_eq (z : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  simp only [Ideal.hostDivf_def, Ideal.addf_def, Ideal.hostUnary_exp_def, Ideal.hostNegf_def, Ideal.negf_def, Ideal.ofBits_def,
    Ideal.ofBits_one_f32]
  rfl

/-- The input gate. -/
theorem gate_i (r : Fin 1024) (u : Fin 2048) :
    val_main_v11 (F := Ideal) x0 x1 x3 (ix2 r u)
      = Ideal.logistic (Cert.Lstm.preact (val_main_v0 (F := Ideal) x0 x1) x3 r ⟨u.val, by omega⟩) := by
  have e : idx_main_v2 (ix2 r u) = ix2 r (⟨u.val, by omega⟩ : Fin 8192) := funext fun a => Fin.ext (by
    match a with
    | ⟨0, _⟩ => rfl
    | ⟨1, _⟩ => rfl)
  rw [val_main_v11_apply, val_main_v10_apply, val_main_cst_0_apply, val_main_v9_apply, val_main_v8_apply, val_main_cst_apply,
    val_main_v7_apply, val_main_v6_apply, val_main_v2_apply, sigmoid_eq, e, preact_apply]

/-- The forget gate. -/
theorem gate_f (r : Fin 1024) (u : Fin 2048) :
    val_main_v17 (F := Ideal) x0 x1 x3 (ix2 r u)
      = Ideal.logistic (Cert.Lstm.preact (val_main_v0 (F := Ideal) x0 x1) x3 r ⟨2048 + u.val, by omega⟩) := by
  have e : idx_main_v3 (ix2 r u) = ix2 r (⟨2048 + u.val, by omega⟩ : Fin 8192) := funext fun a => Fin.ext (by
    match a with
    | ⟨0, _⟩ => rfl
    | ⟨1, _⟩ => rfl)
  rw [val_main_v17_apply, val_main_v16_apply, val_main_cst_2_apply, val_main_v15_apply, val_main_v14_apply, val_main_cst_1_apply,
    val_main_v13_apply, val_main_v12_apply, val_main_v3_apply, sigmoid_eq, e, preact_apply]

/-- The output gate. -/
theorem gate_o (r : Fin 1024) (u : Fin 2048) :
    val_main_v23 (F := Ideal) x0 x1 x3 (ix2 r u)
      = Ideal.logistic (Cert.Lstm.preact (val_main_v0 (F := Ideal) x0 x1) x3 r ⟨6144 + u.val, by omega⟩) := by
  have e : idx_main_v5 (ix2 r u) = ix2 r (⟨6144 + u.val, by omega⟩ : Fin 8192) := funext fun a => Fin.ext (by
    match a with
    | ⟨0, _⟩ => rfl
    | ⟨1, _⟩ => rfl)
  rw [val_main_v23_apply, val_main_v22_apply, val_main_cst_4_apply, val_main_v21_apply, val_main_v20_apply, val_main_cst_3_apply,
    val_main_v19_apply, val_main_v18_apply, val_main_v5_apply, sigmoid_eq, e, preact_apply]

/-- The candidate. -/
theorem cand_g (r : Fin 1024) (u : Fin 2048) :
    val_main_v24 (F := Ideal) x0 x1 x3 (ix2 r u)
      = Ideal.tanh (Cert.Lstm.preact (val_main_v0 (F := Ideal) x0 x1) x3 r ⟨4096 + u.val, by omega⟩) := by
  have e : idx_main_v4 (ix2 r u) = ix2 r (⟨4096 + u.val, by omega⟩ : Fin 8192) := funext fun a => Fin.ext (by
    match a with
    | ⟨0, _⟩ => rfl
    | ⟨1, _⟩ => rfl)
  rw [val_main_v24_apply, val_main_v4_apply, Ideal.hostUnary_tanh_def, e, preact_apply]

/-- The new cell state's entry. -/
theorem cell_apply (r : Fin 1024) (u : Fin 2048) :
    val_main_v27 (F := Ideal) x0 x1 x2 x3 (ix2 r u) = Cert.Lstm.cNew (Cert.Lstm.preact (val_main_v0 (F := Ideal) x0 x1) x3) x2 r u := by
  rw [val_main_v27_apply, val_main_v25_apply, val_main_v26_apply, gate_f, gate_i, cand_g]
  rfl

/-- The new hidden state's entry. -/
theorem hid_apply (r : Fin 1024) (u : Fin 2048) :
    val_main_v29 (F := Ideal) x0 x1 x2 x3 (ix2 r u) = Cert.Lstm.hNew (Cert.Lstm.preact (val_main_v0 (F := Ideal) x0 x1) x3) x2 r u := by
  rw [val_main_v29_apply, gate_o, val_main_v28_apply, cell_apply, Ideal.hostUnary_tanh_def]
  rfl

/-- The reference's cell-state result is the specification's. -/
theorem cell_eq : val_main_v27 (F := Ideal) x0 x1 x2 x3 = Cert.Lstm.cOut (val_main_v0 (F := Ideal) x0 x1) x3 x2 := by
  funext i
  obtain ⟨r, u, rfl⟩ : ∃ (r : Fin 1024) (u : Fin 2048), i = ix2 r u := ⟨i 0, i 1, eq_ix2 i⟩
  exact cell_apply x0 x1 x2 x3 r u

/-- The reference's hidden-state result is the specification's. -/
theorem hid_eq : val_main_v29 (F := Ideal) x0 x1 x2 x3 = Cert.Lstm.hOut (val_main_v0 (F := Ideal) x0 x1) x3 x2 := by
  funext i
  obtain ⟨r, u, rfl⟩ : ∃ (r : Fin 1024) (u : Fin 2048), i = ix2 r u := ⟨i 0, i 1, eq_ix2 i⟩
  exact hid_apply x0 x1 x2 x3 r u

end Cert.ReferenceIdeal.Cell

end
-- ==== Proof.lean ====
/-
  The fused LSTM cell kernel against its jnp reference, over the extended reals.

  Both programs join `x` and `h` along the columns into a [1024, 4096] array and compute, for weights `w` [4096, 8192]
  and cell state `c` [1024, 2048], the pre-activation `z = (x ‖ h) · w`, the gates `i, f, g, o` as its four column bands,
  `c' = σ(f) · c + σ(i) · tanh(g)` and `h' = σ(o) · tanh(c')`; the results are `(h', h', c')`.

  The kernel walks a 4 × 16 grid: a [256, 8192] accumulator is zeroed at the first of a row block's sixteen points and
  gains one [256, 256] × [256, 8192] block product per point (the operands' change of float format is the identity
  here); at the row block's last point the gates are applied and the two [256, 2048] result blocks written back. So
  the accumulator ends at the sum of sixteen blocks of 256 products, which over the extended reals — addition there
  is commutative and associative — is the reference's single contraction over all 4096 (`Lstm.preact_eq_blocks`).
  The kernel's sigmoid is one operation and the reference's the expression `1 / (1 + e^(-z))`: the same function by
  definition. No step needs the inputs finite.

  The frames are the generated ones (the reference's: its generated run with the results dropped); the ideal pass
  rewrote nothing, so `preserves` is trivial; `algebraic` sets the kernel's run (KernelValue) beside the reference's
  generated run read stage by stage (ReferenceValue), both at `Lstm.hOut` / `Lstm.cOut` of the arguments.
-/
import proofs.«166433_j8632884265137_1_alg».proof.Defs
import proofs.«166433_j8632884265137_1_alg».proof.Proof.Gen.Kernel
import proofs.«166433_j8632884265137_1_alg».proof.Proof.Gen.Kernel.Skeleton
import proofs.«166433_j8632884265137_1_alg».proof.Proof.Gen.Kernel.Launch
import proofs.«166433_j8632884265137_1_alg».proof.Proof.Gen.Kernel.Points
import proofs.«166433_j8632884265137_1_alg».proof.Proof.Gen.Kernel.Frame
import proofs.«166433_j8632884265137_1_alg».proof.Proof.Gen.KernelIdeal
import proofs.«166433_j8632884265137_1_alg».proof.Proof.Gen.KernelIdeal.Skeleton
import proofs.«166433_j8632884265137_1_alg».proof.Proof.Gen.KernelIdeal.Launch
import proofs.«166433_j8632884265137_1_alg».proof.Proof.Gen.KernelIdeal.Points
import proofs.«166433_j8632884265137_1_alg».proof.Proof.Gen.KernelIdeal.Frame
import proofs.«166433_j8632884265137_1_alg».proof.Proof.Gen.ReferenceIdeal
import proofs.«166433_j8632884265137_1_alg».proof.Proof.Gen.Pre_finite_inputs
import proofs.«166433_j8632884265137_1_alg».proof.Proof.Gen.KernelIdeal.Value
import proofs.«166433_j8632884265137_1_alg».proof.Proof.Gen.ReferenceIdeal.Run
import proofs.«166433_j8632884265137_1_alg».proof.Proof.Gen.ReferenceIdeal.Read
import proofs.«166433_j8632884265137_1_alg».proof.Proof.KernelValue
import proofs.«166433_j8632884265137_1_alg».proof.Proof.ReferenceValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the cell's new hidden state (twice) and new cell state of arguments that agree. -/
theorem algebraic : Cert.algebraic_KernelIdeal_ReferenceIdeal := by
  intro m ρ m' ρ' _ hagree
  refine ⟨fun c => Cert.KernelIdeal.Cell.hRes m c, fun c => Cert.KernelIdeal.Cell.hRes m c,
    fun c => Cert.KernelIdeal.Cell.cRes m c, ?_, ?_⟩
  · exact (θ_run Cert.KernelIdeal.defs _ _).mono (fun _ h c => ⟨(h c).1, (h c).1, (h c).2.1, (h c).2.2⟩)
      (Cert.KernelIdeal.Cell.run m ρ)
  · refine (θ_run Cert.ReferenceIdeal.defs _ _).mono
      (fun _ h c => ⟨(h c).1.trans ?_, (h c).2.1.trans ?_, (h c).2.2.1.trans ?_, (h c).2.2.2⟩)
      (Cert.ReferenceIdeal.Value.run (F := Ideal) m' ρ')
    · rw [Cert.ReferenceIdeal.Read.val_main_v29_eq, Cert.ReferenceIdeal.Cell.hid_eq, (hagree c).1, (hagree c).2.1,
        (hagree c).2.2.1, (hagree c).2.2.2]
      rfl
    · rw [Cert.ReferenceIdeal.Read.val_main_v29_eq, Cert.ReferenceIdeal.Cell.hid_eq, (hagree c).1, (hagree c).2.1,
        (hagree c).2.2.1, (hagree c).2.2.2]
      rfl
    · rw [Cert.ReferenceIdeal.Read.val_main_v27_eq, Cert.ReferenceIdeal.Cell.cell_eq, (hagree c).1, (hagree c).2.1,
        (hagree c).2.2.1, (hagree c).2.2.2]
      rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
